-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1024 : Shape := ⟨2, ![262144, 1024]⟩
abbrev S1024x128 : Shape := ⟨2, ![1024, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S262144x1024 : S_.BroadcastsInDim S262144x1024 (![] : Fin 0 → Fin S262144x1024.rank)
  reducesTo_S262144x1024_S_d0_1 : S262144x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S262144x1024 .f32) (main_arg1 : FVec F S1024x128 .f32) (main_arg2 : FVec F S128 .f32) (main_arg3 : FVec F S128x4 .f32) (main_arg4 : FVec F S4 .f32) : IVec S_ 1 :=
  let main_v0 : FVec F S262144x1024 .f32 := Host.absf main_arg0
  let main_cst : FVec F S_ .f32 := constant S_ .f32 0x7F800000#32
  let main_v1 : FVec F S262144x1024 .f32 := broadcastInDim S262144x1024 ![] bcast_S_S262144x1024 main_cst
  let main_v2 : IVec S262144x1024 1 := cmpf .olt main_v0 main_v1
  let main_c : IVec S_ 1 := constantI S_ 1 1#1
  let main_v3 : IVec S_ 1 := (fun x v => Host.reduce IntOp.andi x v reducesTo_S262144x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x4 .f32 := Host.absf main_arg3
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg4 main_v13 main_v16
-- ==== Kernel.lean ====
abbrev S262144x1024 : Shape := ⟨2, ![262144, 1024]⟩
abbrev S1024x128 : Shape := ⟨2, ![1024, 128]⟩
abbrev S128 : Shape := ⟨1, ![128]⟩
abbrev S128x4 : Shape := ⟨2, ![128, 4]⟩
abbrev S4 : Shape := ⟨1, ![4]⟩
abbrev S1x128 : Shape := ⟨2, ![1, 128]⟩
abbrev S1x4 : Shape := ⟨2, ![1, 4]⟩
abbrev S262144x4 : Shape := ⟨2, ![262144, 4]⟩
abbrev S2048x1024 : Shape := ⟨2, ![2048, 1024]⟩
abbrev S2048x4 : Shape := ⟨2, ![2048, 4]⟩
abbrev S2048x128 : Shape := ⟨2, ![2048, 128]⟩

abbrev nBuf : Space → Nat
  | .hbm => 10
  | .vmem => 8
  | .smem => 0
  | _ => 0

abbrev bufTy : (tb : Table) → Fin (tcTables nBuf tb) → BufTy
  | .hbm, ⟨0, _⟩ => ⟨S262144x1024, .f32⟩
  | .hbm, ⟨1, _⟩ => ⟨S1024x128, .f32⟩
  | .hbm, ⟨2, _⟩ => ⟨S128, .f32⟩
  | .hbm, ⟨3, _⟩ => ⟨S128x4, .f32⟩
  | .hbm, ⟨4, _⟩ => ⟨S4, .f32⟩
  | .hbm, ⟨5, _⟩ => ⟨S1024x128, .bf16⟩
  | .hbm, ⟨6, _⟩ => ⟨S128x4, .bf16⟩
  | .hbm, ⟨7, _⟩ => ⟨S1x128, .f32⟩
  | .hbm, ⟨8, _⟩ => ⟨S1x4, .f32⟩
  | .hbm, ⟨9, _⟩ => ⟨S262144x4, .f32⟩
  | .local _ .vmem, ⟨0, _⟩ => ⟨S2048x1024, .f32⟩
  | .local _ .vmem, ⟨1, _⟩ => ⟨S2048x1024, .f32⟩
  | .local _ .vmem, ⟨2, _⟩ => ⟨S1024x128, .bf16⟩
  | .local _ .vmem, ⟨3, _⟩ => ⟨S1x128, .f32⟩
  | .local _ .vmem, ⟨4, _⟩ => ⟨S128x4, .bf16⟩
  | .local _ .vmem, ⟨5, _⟩ => ⟨S1x4, .f32⟩
  | .local _ .vmem, ⟨6, _⟩ => ⟨S2048x4, .f32⟩
  | .local _ .vmem, ⟨7, _⟩ => ⟨S2048x4, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S128_S1x128 : S128.ShapeCasts S1x128
  shapeCasts_S4_S1x4 : S4.ShapeCasts S1x4
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2048x4 : S1x4.Broadcasts S2048x4
  inb_S2048x4_S2048x4_0_0 : ∀ a, (![0, 0] : Fin 2 → Nat) a + S2048x4.size a ≤ S2048x4.size a
  h_S2048x4 : 0 < S2048x4.numel
  dot_S2048x1024_S1024x128_S2048x128_1_0_0_1_n_n_wf : DotDims.WF S2048x1024 S1024x128 S2048x128 [1] [0] [0] [1] [] []
  dot_S2048x128_S128x4_S2048x4_1_0_0_1_n_n_wf : DotDims.WF S2048x128 S128x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S262144x1024.size a
  hwx0_0 : ∀ i : grid0.Coords, EltTy.bits .f32 = 32 ∨ (Rect.block (s := S262144x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4.size a ≤ S128x4.size a
  hwx0_3 : ∀ i : grid0.Coords, EltTy.bits .bf16 = 32 ∨ (Rect.block (s := S128x4) S128x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x4.size a ≤ S262144x4.size a
  hwx0_5 : ∀ i : grid0.Coords, EltTy.bits .f32 = 32 ∨ (Rect.block (s := S262144x4) S2048x4.size (cc0_transform_5 i) (hinb0_5 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x4_S2048x4_1_0_0_1_n_n : DotDims S2048x128 S128x4 S2048x4 where
  lhsContracting := [1]
  rhsContracting := [0]
  lhsNonContracting := [0]
  rhsNonContracting := [1]
  lhsBatch := []
  rhsBatch := []
  wf := dot_S2048x128_S128x4_S2048x4_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x1024 : Shape := ⟨2, ![262144, 1024]⟩
abbrev S1024x128 : Shape := ⟨2, ![1024, 128]⟩
abbrev S128 : Shape := ⟨1, ![128]⟩
abbrev S128x4 : Shape := ⟨2, ![128, 4]⟩
abbrev S4 : Shape := ⟨1, ![4]⟩
abbrev S262144x128 : Shape := ⟨2, ![262144, 128]⟩
abbrev S1x128 : Shape := ⟨2, ![1, 128]⟩
abbrev S_ : Shape := ⟨0, ![]⟩
abbrev S262144x4 : Shape := ⟨2, ![262144, 4]⟩
abbrev S1x4 : Shape := ⟨2, ![1, 4]⟩

abbrev nBuf : Space → Nat
  | .hbm => 16
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S1024x128, .f32⟩
  | .hbm, ⟨2, _⟩ => ⟨S128, .f32⟩
  | .hbm, ⟨3, _⟩ => ⟨S128x4, .f32⟩
  | .hbm, ⟨4, _⟩ => ⟨S4, .f32⟩
  | .hbm, ⟨5, _⟩ => ⟨S262144x128, .f32⟩
  | .hbm, ⟨6, _⟩ => ⟨S1x128, .f32⟩
  | .hbm, ⟨7, _⟩ => ⟨S262144x128, .f32⟩
  | .hbm, ⟨8, _⟩ => ⟨S262144x128, .f32⟩
  | .hbm, ⟨9, _⟩ => ⟨S_, .f32⟩
  | .hbm, ⟨10, _⟩ => ⟨S262144x128, .f32⟩
  | .hbm, ⟨11, _⟩ => ⟨S262144x128, .f32⟩
  | .hbm, ⟨12, _⟩ => ⟨S262144x4, .f32⟩
  | .hbm, ⟨13, _⟩ => ⟨S1x4, .f32⟩
  | .hbm, ⟨14, _⟩ => ⟨S262144x4, .f32⟩
  | .hbm, ⟨15, _⟩ => ⟨S262144x4, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  dot_S262144x1024_S1024x128_S262144x128_1_0_0_1_n_n_wf : DotDims.WF S262144x1024 S1024x128 S262144x128 [1] [0] [0] [1] [] []
  dot_S262144x128_S128x4_S262144x4_1_0_0_1_n_n_wf : DotDims.WF S262144x128 S128x4 S262144x4 [1] [0] [0] [1] [] []

variable [Facts₀]

def dot_S262144x1024_S1024x128_S262144x128_1_0_0_1_n_n : DotDims S262144x1024 S1024x128 S262144x128 where
  lhsContracting := [1]
  rhsContracting := [0]
  lhsNonContracting := [0]
  rhsNonContracting := [1]
  lhsBatch := []
  rhsBatch := []
  wf := dot_S262144x1024_S1024x128_S262144x128_1_0_0_1_n_n_wf
def dot_S262144x128_S128x4_S262144x4_1_0_0_1_n_n : DotDims S262144x128 S128x4 S262144x4 where
  lhsContracting := [1]
  rhsContracting := [0]
  lhsNonContracting := [0]
  rhsNonContracting := [1]
  lhsBatch := []
  rhsBatch := []
  wf := dot_S262144x128_S128x4_S262144x4_1_0_0_1_n_n_wf

class Facts : Prop extends Facts₀ where

variable [Facts]
-- ==== Proof.MlpSpec.lean ====
/-
  A two-layer perceptron applied to every row of a matrix, as ONE function of the argument arrays over the
  extended reals. For row `r` of `V`:

    hidden r k = max (Σ_l V[r,l] · W1[l,k] + b1[k]) 0          (k < 128)
    out   r j = Σ_k hidden r k · W2[k,j] + b2[j]               (j < 4)

  Both programs compute exactly these sums (a change of float format is the identity on the extended reals, and a
  product into a zero accumulator is the plain sum), so no law beyond the definitions joins them: the kernel's
  row `p` of block `t` is row `2048·t + p` of the whole.
-/
import Idealize.ShloMosaic.PureOps.Ideal
import Idealize.ShloMosaic.Lib.ValueIdx

noncomputable section

namespace Cert.Mlp

open Idealize.ShloMosaic Idealize.ShloMosaic.ValueIdx

/-- The hidden layer at row `r`, unit `k`: the row's inner product with column `k` of `W1`, plus the bias, clamped
    below at zero. -/
def hidden (V : FVec Ideal ⟨2, ![262144, 1024]⟩ .f32) (W1 : FVec Ideal ⟨2, ![1024, 128]⟩ .f32)
    (b1 : FVec Ideal ⟨1, ![128]⟩ .f32) (r : Fin 262144) (k : Fin 128) : EReal :=
  max ((∑ l : Fin 1024, V (ix2 r l) * W1 (ix2 l k)) + b1 (ix1 k)) 0

/-- The result at `(r, j)`: the hidden row's inner product with column `j` of `W2`, plus the bias. -/
def out (V : FVec Ideal ⟨2, ![262144, 1024]⟩ .f32) (W1 : FVec Ideal ⟨2, ![1024, 128]⟩ .f32)
    (b1 : FVec Ideal ⟨1, ![128]⟩ .f32) (W2 : FVec Ideal ⟨2, ![128, 4]⟩ .f32) (b2 : FVec Ideal ⟨1, ![4]⟩ .f32) :
    FVec Ideal ⟨2, ![262144, 4]⟩ .f32 := fun i =>
  (∑ k : Fin 128, hidden V W1 b1 (i 0) k * W2 (ix2 k (i 1))) + b2 (ix1 (i 1))

/-- The same read at explicit coordinates. -/
theorem out_ix2 (V : FVec Ideal ⟨2, ![262144, 1024]⟩ .f32) (W1 : FVec Ideal ⟨2, ![1024, 128]⟩ .f32)
    (b1 : FVec Ideal ⟨1, ![128]⟩ .f32) (W2 : FVec Ideal ⟨2, ![128, 4]⟩ .f32) (b2 : FVec Ideal ⟨1, ![4]⟩ .f32)
    (r : Fin 262144) (j : Fin 4) :
    out V W1 b1 W2 b2 (ix2 r j) = (∑ k : Fin 128, hidden V W1 b1 r k * W2 (ix2 k j)) + b2 (ix1 j) := rfl

end Cert.Mlp

end
-- ==== Proof.MlpRef.lean ====
/-
  The reference read index by index: its two `dot_general`s are the two sums of the specification, the broadcasts of the
  biases read the bias at the column, and its `maximum` against a broadcast zero is the clamp at zero. So the reference's
  last stage is `Cert.Mlp.out` of its arguments.
-/
import proofs.«416699_j49821620633830_3_alg».proof.Proof.Gen.ReferenceIdeal.Read
import proofs.«416699_j49821620633830_3_alg».proof.Proof.MlpSpec

noncomputable section

namespace Cert.Mlp.Ref

open Cert.ReferenceIdeal Cert.ReferenceIdeal.Read Idealize.ShloMosaic Idealize.ShloMosaic.ValueIdx

/-! ## Where each stage reads its operands, in coordinates -/

/-- The second product at `(r, j)`, term `k`, reads the hidden layer at `(r, k)` … -/
theorem hidden_at (r : Fin 262144) (j : Fin 4) (k : Fin 128) : lidx_main_v5 (ix2 r j) k = ix2 r k :=
  funext fun a => by match a with | ⟨0, _⟩ => rfl | ⟨1, _⟩ => rfl
/-- … and `W2` at `(k, j)`. -/
theorem w2_at (r : Fin 262144) (j : Fin 4) (k : Fin 128) : ridx_main_v5 (ix2 r j) k = ix2 k j :=
  funext fun a => by match a with | ⟨0, _⟩ => rfl | ⟨1, _⟩ => rfl
/-- The first product at `(r, k)`, term `l`, reads `V` at `(r, l)` … -/
theorem v_at (r : Fin 262144) (k : Fin 128) (l : Fin 1024) : lidx_main_v0 (ix2 r k) l = ix2 r l :=
  funext fun a => by match a with | ⟨0, _⟩ => rfl | ⟨1, _⟩ => rfl
/-- … and `W1` at `(l, k)`. -/
theorem w1_at (r : Fin 262144) (k : Fin 128) (l : Fin 1024) : ridx_main_v0 (ix2 r k) l = ix2 l k :=
  funext fun a => by match a with | ⟨0, _⟩ => rfl | ⟨1, _⟩ => rfl
/-- The first bias, broadcast to every row, is read at the column. -/
theorem b1_at (r : Fin 262144) (k : Fin 128) : idx_main_v1 (idx_main_v2 (ix2 r k)) = ix1 k :=
  funext fun a => by match a with | ⟨0, _⟩ => rfl
/-- The second bias likewise. -/
theorem b2_at (r : Fin 262144) (j : Fin 4) : idx_main_v6 (idx_main_v7 (ix2 r j)) = ix1 j :=
  funext fun a => by match a with | ⟨0, _⟩ => rfl

/-- The reference's last stage is the specification. -/
theorem stage_eq_out (x0 : FVec Ideal S262144x1024 .f32) (x1 : FVec Ideal S1024x128 .f32) (x2 : FVec Ideal S128 .f32)
    (x3 : FVec Ideal S128x4 .f32) (x4 : FVec Ideal S4 .f32) :
    val_main_v8 (F := Ideal) x0 x1 x2 x3 x4 = Cert.Mlp.out x0 x1 x2 x3 x4 := by
  funext i
  obtain ⟨r, j, rfl⟩ : ∃ (r : Fin 262144) (j : Fin 4), i = ix2 r j := ⟨i 0, i 1, eq_ix2 i⟩
  rw [val_main_v8_apply, val_main_v5_apply, val_main_v7_apply, val_main_v6_apply, Cert.Mlp.out_ix2]
  simp only [val_main_v4_apply, val_main_v3_apply, val_main_v0_apply, val_main_v2_apply, val_main_v1_apply,
    val_main_call0_v0_apply, val_main_call0_cst_apply, hidden_at, w2_at, v_at, w1_at, b1_at, b2_at,
    Ideal.addf_def, Ideal.maximumf_def, Ideal.ofBits_def, Ideal.ofBits_zero_f32]
  rfl

end Cert.Mlp.Ref

end
-- ==== Proof.MlpPayload.lean ====
/-
  One grid point's arithmetic, read at an index. The body's payload for the output block is
  `matmul (max (matmul x0 x1 + bcast x2) 0) x3 + bcast x4` over the point's loaded blocks (changes of float format are
  the identity on the extended reals). Read at row `p`, column `j` of the block it is

    Σ_k max (Σ_l x0[p,l] · x1[l,k] + x2[0,k]) 0 · x3[k,j] + x4[0,j]:

  each product into a zero accumulator is the plain sum over its one contracted axis, and a bias row broadcast down the
  rows is read at the column.
-/
import proofs.«416699_j49821620633830_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.Mlp.Body

open Cert.KernelIdeal Cert.KernelIdeal.Gen Idealize.ShloMosaic Idealize.ShloMosaic.ValueIdx

/-! ## The first product: [2048, 1024] × [1024, 128] -/

theorem lhs_first_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_first_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_first_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_first_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The first product into a zero accumulator, at `(p, k)`: the row's inner product with column `k`. -/
theorem first_product_apply (x : FVec Ideal S2048x1024 .bf16) (w : FVec Ideal S1024x128 .bf16) (p : Fin 2048) (k : Fin 128) :
    matmul dot_S2048x1024_S1024x128_S2048x128_1_0_0_1_n_n none x w (constant (F := Ideal) S2048x128 .f32 0x00000000#32) (ix2 p k)
      = ∑ l : Fin 1024, x (ix2 p l) * w (ix2 l k) := by
  simp only [matmul]
  rw [Ideal.matmul_constant_zero_apply, ← Equiv.sum_comp (contrEquiv1 dot_S2048x1024_S1024x128_S2048x128_1_0_0_1_n_n 1024 rfl rfl).symm]
  refine Finset.sum_congr rfl fun l _ => ?_
  have hl := contrEquiv1_symm_val dot_S2048x1024_S1024x128_S2048x128_1_0_0_1_n_n 1024 rfl rfl l
  have el : dot_S2048x1024_S1024x128_S2048x128_1_0_0_1_n_n.lhsIdx (ix2 p k) ((contrEquiv1 dot_S2048x1024_S1024x128_S2048x128_1_0_0_1_n_n 1024 rfl rfl).symm l) = ix2 p l := funext fun a => Fin.ext (by
    match a with
    | ⟨0, _⟩ => exact lhs_first_0 _ _
    | ⟨1, _⟩ => exact (lhs_first_1 _ _).trans hl)
  have er : dot_S2048x1024_S1024x128_S2048x128_1_0_0_1_n_n.rhsIdx (ix2 p k) ((contrEquiv1 dot_S2048x1024_S1024x128_S2048x128_1_0_0_1_n_n 1024 rfl rfl).symm l) = ix2 l k := funext fun a => Fin.ext (by
    match a with
    | ⟨0, _⟩ => exact (rhs_first_0 _ _).trans hl
    | ⟨1, _⟩ => exact rhs_first_1 _ _)
  rw [el, er]

/-! ## The second product: [2048, 128] × [128, 4] -/

theorem lhs_second_0 (i : S2048x4.Idx) (q : dot_S2048x128_S128x4_S2048x4_1_0_0_1_n_n.contr.Idx) :
    (dot_S2048x128_S128x4_S2048x4_1_0_0_1_n_n.lhsIdx i q 0).val = (i 0).val := by
  unfold DotDims.lhsIdx
  rw [dif_neg (show ¬(0 : Fin S2048x128.rank) ∈ dot_S2048x128_S128x4_S2048x4_1_0_0_1_n_n.lhsBatch by decide), dif_pos (show (0 : Fin S2048x128.rank) ∈ dot_S2048x128_S128x4_S2048x4_1_0_0_1_n_n.lhsNonContracting by decide)]
  rfl
theorem lhs_second_1 (i : S2048x4.Idx) (q : dot_S2048x128_S128x4_S2048x4_1_0_0_1_n_n.contr.Idx) :
    (dot_S2048x128_S128x4_S2048x4_1_0_0_1_n_n.lhsIdx i q 1).val = (q ⟨0, by decide⟩).val :=
  dot_S2048x128_S128x4_S2048x4_1_0_0_1_n_n.lhsIdx_val_of_single rfl i q
theorem rhs_second_0 (i : S2048x4.Idx) (q : dot_S2048x128_S128x4_S2048x4_1_0_0_1_n_n.contr.Idx) :
    (dot_S2048x128_S128x4_S2048x4_1_0_0_1_n_n.rhsIdx i q 0).val = (q ⟨0, by decide⟩).val :=
  dot_S2048x128_S128x4_S2048x4_1_0_0_1_n_n.rhsIdx_val_of_single rfl i q
theorem rhs_second_1 (i : S2048x4.Idx) (q : dot_S2048x128_S128x4_S2048x4_1_0_0_1_n_n.contr.Idx) :
    (dot_S2048x128_S128x4_S2048x4_1_0_0_1_n_n.rhsIdx i q 1).val = (i 1).val := by
  unfold DotDims.rhsIdx
  rw [dif_neg (show ¬(1 : Fin S128x4.rank) ∈ dot_S2048x128_S128x4_S2048x4_1_0_0_1_n_n.rhsBatch by decide), dif_pos (show (1 : Fin S128x4.rank) ∈ dot_S2048x128_S128x4_S2048x4_1_0_0_1_n_n.rhsNonContracting by decide)]
  rfl

/-- The second product into a zero accumulator, at `(p, j)`: the hidden row's inner product with column `j`. -/
theorem second_product_apply (h : FVec Ideal S2048x128 .bf16) (w : FVec Ideal S128x4 .bf16) (p : Fin 2048) (j : Fin 4) :
    matmul dot_S2048x128_S128x4_S2048x4_1_0_0_1_n_n none h w (constant (F := Ideal) S2048x4 .f32 0x00000000#32) (ix2 p j)
      = ∑ k : Fin 128, h (ix2 p k) * w (ix2 k j) := by
  simp only [matmul]
  rw [Ideal.matmul_constant_zero_apply, ← Equiv.sum_comp (contrEquiv1 dot_S2048x128_S128x4_S2048x4_1_0_0_1_n_n 128 rfl rfl).symm]
  refine Finset.sum_congr rfl fun k _ => ?_
  have hk := contrEquiv1_symm_val dot_S2048x128_S128x4_S2048x4_1_0_0_1_n_n 128 rfl rfl k
  have el : dot_S2048x128_S128x4_S2048x4_1_0_0_1_n_n.lhsIdx (ix2 p j) ((contrEquiv1 dot_S2048x128_S128x4_S2048x4_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S2048x128_S128x4_S2048x4_1_0_0_1_n_n.rhsIdx (ix2 p j) ((contrEquiv1 dot_S2048x128_S128x4_S2048x4_1_0_0_1_n_n 128 rfl rfl).symm k) = ix2 k j := funext fun a => Fin.ext (by
    match a with
    | ⟨0, _⟩ => exact (rhs_second_0 _ _).trans hk
    | ⟨1, _⟩ => exact rhs_second_1 _ _)
  rw [el, er]

/-! ## A bias row broadcast down the rows is read at the column -/

theorem bias1_apply (v : FVec Ideal S1x128 .f32) (h : S1x128.Broadcasts S2048x128) (p : Fin 2048) (k : Fin 128) :
    broadcastTo S2048x128 v h (ix2 p k) = v (ix2 (0 : Fin 1) k) :=
  broadcastTo_apply v h (ix2 p k) (ix2 (0 : Fin 1) k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

theorem bias2_apply (v : FVec Ideal S1x4 .f32) (h : S1x4.Broadcasts S2048x4) (p : Fin 2048) (j : Fin 4) :
    broadcastTo S2048x4 v h (ix2 p j) = v (ix2 (0 : Fin 1) j) :=
  broadcastTo_apply v h (ix2 p j) (ix2 (0 : Fin 1) j) (fun a => match a with
    | ⟨0, _⟩ => by show (0 : Nat) = if (1 : Nat) = 1 then 0 else p.val; rw [if_pos rfl]
    | ⟨1, _⟩ => by show j.val = if (4 : Nat) = 1 then 0 else j.val; rw [if_neg (by decide)])

/-! ## The payload at an index -/

/-- The hidden activation one point computes, at row `p` of its block and unit `k`. -/
def hiddenBlk (x0 : Vec Ideal S2048x1024 .f32) (x1 : Vec Ideal S1024x128 .bf16) (x2 : Vec Ideal S1x128 .f32)
    (p : Fin 2048) (k : Fin 128) : EReal :=
  max ((∑ l : Fin 1024, x0 (ix2 p l) * x1 (ix2 l k)) + x2 (ix2 (0 : Fin 1) k)) 0

/-- What one point stores, at row `p` of its block and column `j`. -/
theorem payload_apply (x0 : Vec Ideal S2048x1024 .f32) (x1 : Vec Ideal S1024x128 .bf16) (x2 : Vec Ideal S1x128 .f32)
    (x3 : Vec Ideal S128x4 .bf16) (x4 : Vec Ideal S1x4 .f32) (p : Fin 2048) (j : Fin 4) :
    k0_pay1 (F := Ideal) x0 x1 x2 x3 x4 (ix2 p j)
      = (∑ k : Fin 128, hiddenBlk x0 x1 x2 p k * x3 (ix2 k j)) + x4 (ix2 (0 : Fin 1) j) := by
  unfold k0_pay1
  simp only [shapeCast_self]
  rw [addf_apply, second_product_apply, bias2_apply]
  refine congrArg (· + x4 (ix2 (0 : Fin 1) j)) (Finset.sum_congr rfl fun k _ => ?_)
  rw [truncf_apply, maximumf_apply, addf_apply, first_product_apply, bias1_apply, broadcast_apply]
  simp only [truncf_apply]
  show max _ (Ideal.ofBits .f32 0x00000000#32) * _ = _
  rw [Ideal.ofBits_zero_f32]
  rfl

end Cert.Mlp.Body

end
-- ==== Proof.MlpPoint.lean ====
/-
  One grid point against the whole: if a point's loaded blocks are the argument arrays read where the point sits — rows
  `r p` of `V` for the block's rows `p`, the weights and the bias rows whole — then what the point stores at `(p, j)` is
  the perceptron's result at `(r p, j)`. Both sides are the same two nested sums.
-/
import proofs.«416699_j49821620633830_3_alg».proof.Proof.MlpSpec
import proofs.«416699_j49821620633830_3_alg».proof.Proof.MlpPayload

noncomputable section

namespace Cert.Mlp.Body

open Cert.KernelIdeal Cert.KernelIdeal.Gen Idealize.ShloMosaic Idealize.ShloMosaic.ValueIdx

theorem point_eq (x0 : Vec Ideal S2048x1024 .f32) (x1 : Vec Ideal S1024x128 .bf16) (x2 : Vec Ideal S1x128 .f32)
    (x3 : Vec Ideal S128x4 .bf16) (x4 : Vec Ideal S1x4 .f32)
    (V : FVec Ideal ⟨2, ![262144, 1024]⟩ .f32) (W1 : FVec Ideal ⟨2, ![1024, 128]⟩ .f32) (b1 : FVec Ideal ⟨1, ![128]⟩ .f32)
    (W2 : FVec Ideal ⟨2, ![128, 4]⟩ .f32) (b2 : FVec Ideal ⟨1, ![4]⟩ .f32)
    (r : Fin 2048 → Fin 262144)
    (h0 : ∀ (p : Fin 2048) (l : Fin 1024), x0 (ix2 p l) = V (ix2 (r p) l))
    (h1 : ∀ (l : Fin 1024) (k : Fin 128), x1 (ix2 l k) = W1 (ix2 l k))
    (h2 : ∀ k : Fin 128, x2 (ix2 (0 : Fin 1) k) = b1 (ix1 k))
    (h3 : ∀ (k : Fin 128) (j : Fin 4), x3 (ix2 k j) = W2 (ix2 k j))
    (h4 : ∀ j : Fin 4, x4 (ix2 (0 : Fin 1) j) = b2 (ix1 j))
    (p : Fin 2048) (j : Fin 4) :
    k0_pay1 (F := Ideal) x0 x1 x2 x3 x4 (ix2 p j) = Cert.Mlp.out V W1 b1 W2 b2 (ix2 (r p) j) := by
  rw [payload_apply, Cert.Mlp.out_ix2]
  unfold hiddenBlk Cert.Mlp.hidden
  simp only [h0, h1, h2, h3, h4]

end Cert.Mlp.Body

end
-- ==== Proof.MlpBlocks.lean ====
/-
  From the grid's blocks to the whole array. The grid has 128 points; point `t` reads rows `2048·t … 2048·t + 2047` of
  `V` (block `t` of its window) and the weights and biases whole (their windows' one block), and writes back rows
  `2048·t …` of the result. The weights reach the region through a change of float format, the biases through a reshape
  [n] → [1, n]: on the extended reals both keep every entry. So what point `t` writes back is block `t` of the perceptron's
  result on the argument arrays, the 128 blocks tile the result's rows (row `i` lies in block `i / 2048`), and the
  result array ends holding `Cert.Mlp.out` of the arguments.
-/
import proofs.«416699_j49821620633830_3_alg».proof.Proof.Gen.KernelIdeal.Value
import proofs.«416699_j49821620633830_3_alg».proof.Proof.MlpPoint
import Idealize.ShloMosaic.Lib.Pipeline.Value
import Idealize.ShloMosaic.Lib.StableHlo.Run
import Idealize.ShloMosaic.Lib.ValueIdx

noncomputable section

namespace Cert.Mlp.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 :=
  funext fun a => by match a with | ⟨0, _⟩ => rfl | ⟨1, _⟩ => rfl

/-- The perceptron's result on the argument arrays as launched. -/
abbrev result (c : Dev nD) : FVec Ideal S262144x4 .f32 :=
  Cert.Mlp.out (m ((c : Thread nD τ).loc main_arg0) : S262144x1024.Idx → EReal)
    (m ((c : Thread nD τ).loc main_arg1) : S1024x128.Idx → EReal)
    (m ((c : Thread nD τ).loc main_arg2) : S128.Idx → EReal)
    (m ((c : Thread nD τ).loc main_arg3) : S128x4.Idx → EReal)
    (m ((c : Thread nD τ).loc main_arg4) : S4.Idx → EReal)

/-- The row of the whole array that row `p` of point `t`'s block is. -/
def rowOf (t : Fin cfg0.N) (p : Fin 2048) : Fin 262144 :=
  ⟨2048 * t.val + p.val, by have h := t.isLt; have hN : cfg0.N = 128 := N_0; have hp := p.isLt; omega⟩

/-! ## What the region finds in the arrays the host wrote -/

/-- `W1` reaches the region through a change of float format, which keeps every entry. -/
theorem w1_entry (c : Dev nD) : (V m c main_v0 : S1024x128.Idx → EReal)
    = (m ((c : Thread nD τ).loc main_arg1) : S1024x128.Idx → EReal) := by
  dsimp only [V, hostOps0]; after_results; rfl

/-- `W2` likewise. -/
theorem w2_entry (c : Dev nD) : (V m c main_v1 : S128x4.Idx → EReal)
    = (m ((c : Thread nD τ).loc main_arg3) : S128x4.Idx → EReal) := by
  dsimp only [V, hostOps0]; after_results; rfl

/-- `b1` as one row. -/
theorem b1_entry (c : Dev nD) : (V m c main_v2 : S1x128.Idx → EReal)
    = shapeCast S1x128 (m ((c : Thread nD τ).loc main_arg2) : S128.Idx → EReal) shapeCasts_S128_S1x128 := by
  dsimp only [V, hostOps0]; after_results; rfl

/-- `b2` as one row. -/
theorem b2_entry (c : Dev nD) : (V m c main_v3 : S1x4.Idx → EReal)
    = shapeCast S1x4 (m ((c : Thread nD τ).loc main_arg4) : S4.Idx → EReal) shapeCasts_S4_S1x4 := by
  dsimp only [V, hostOps0]; after_results; rfl

/-! ## The printed index maps over the grid -/

/-- Windows 0 and 5 step through the rows with the point; windows 1 to 4 stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block, read -/

/-- Point `t`'s block of `V` is its rows `2048·t …`. -/
theorem v_block (c : Dev nD) (t : Fin cfg0.N) (p : Fin 2048) (l : Fin 1024) :
    (iblk m c 0 t : Vec Ideal S2048x1024 .f32) (ix2 p l)
      = (m ((c : Thread nD τ).loc main_arg0) : S262144x1024.Idx → EReal) (ix2 (rowOf t p) l) := by
  obtain ⟨e0, e1, -⟩ := idx_facts t
  show V m c main_arg0 (((cfg0.win 0).blk t).view.emb (ix2 p l)) = _
  rw [V_main_arg0]
  refine congrArg (m ((c : Thread nD τ).loc main_arg0) : S262144x1024.Idx → EReal) (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 1024 + 1 * l.val = l.val; rw [e1]; omega

/-- Every point's block of the first weight window is `W1`. -/
theorem w1_block (c : Dev nD) (t : Fin cfg0.N) (l : Fin 1024) (k : Fin 128) :
    (iblk m c 1 t : Vec Ideal S1024x128 .bf16) (ix2 l k)
      = (m ((c : Thread nD τ).loc main_arg1) : S1024x128.Idx → EReal) (ix2 l k) := by
  obtain ⟨-, -, e0, e1, -⟩ := idx_facts t
  show V m c main_v0 (((cfg0.win 1).blk t).view.emb (ix2 l k)) = _
  rw [w1_entry]
  refine congrArg (m ((c : Thread nD τ).loc main_arg1) : S1024x128.Idx → EReal) (funext fun a => Fin.ext ?_)
  match a with
  | ⟨0, _⟩ => show win0_1.index t (0 : Fin 2) * 1024 + 1 * l.val = l.val; rw [e0]; omega
  | ⟨1, _⟩ => show win0_1.index t (1 : Fin 2) * 128 + 1 * k.val = k.val; rw [e1]; omega

/-- Every point's block of the first bias window is `b1`, as a row. -/
theorem b1_block (c : Dev nD) (t : Fin cfg0.N) (k : Fin 128) :
    (iblk m c 2 t : Vec Ideal S1x128 .f32) (ix2 (0 : Fin 1) k)
      = (m ((c : Thread nD τ).loc main_arg2) : S128.Idx → EReal) (ix1 k) := by
  obtain ⟨-, -, -, -, e0, e1, -⟩ := idx_facts t
  show V m c main_v2 (((cfg0.win 2).blk t).view.emb (ix2 (0 : Fin 1) k)) = _
  rw [b1_entry]
  refine shapeCast_apply _ _ _ (ix1 k) ?_
  rw [Shape.rowMajor_val_one, Shape.rowMajor_val_two]
  show k.val = (win0_2.index t (0 : Fin 2) * 1 + 1 * 0) * 128 + (win0_2.index t (1 : Fin 2) * 128 + 1 * k.val)
  rw [e0, e1]; omega

/-- Every point's block of the second weight window is `W2`. -/
theorem w2_block (c : Dev nD) (t : Fin cfg0.N) (k : Fin 128) (j : Fin 4) :
    (iblk m c 3 t : Vec Ideal S128x4 .bf16) (ix2 k j)
      = (m ((c : Thread nD τ).loc main_arg3) : S128x4.Idx → EReal) (ix2 k j) := by
  obtain ⟨-, -, -, -, -, -, e0, e1, -⟩ := idx_facts t
  show V m c main_v1 (((cfg0.win 3).blk t).view.emb (ix2 k j)) = _
  rw [w2_entry]
  refine congrArg (m ((c : Thread nD τ).loc main_arg3) : S128x4.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 4 + 1 * j.val = j.val; rw [e1]; omega

/-- Every point's block of the second bias window is `b2`, as a row. -/
theorem b2_block (c : Dev nD) (t : Fin cfg0.N) (j : Fin 4) :
    (iblk m c 4 t : Vec Ideal S1x4 .f32) (ix2 (0 : Fin 1) j)
      = (m ((c : Thread nD τ).loc main_arg4) : S4.Idx → EReal) (ix1 j) := by
  obtain ⟨-, -, -, -, -, -, -, -, e0, e1, -⟩ := idx_facts t
  show V m c main_v3 (((cfg0.win 4).blk t).view.emb (ix2 (0 : Fin 1) j)) = _
  rw [b2_entry]
  refine shapeCast_apply _ _ _ (ix1 j) ?_
  rw [Shape.rowMajor_val_one, Shape.rowMajor_val_two]
  show j.val = (win0_4.index t (0 : Fin 2) * 1 + 1 * 0) * 4 + (win0_4.index t (1 : Fin 2) * 4 + 1 * j.val)
  rw [e0, e1]; omega

/-! ## What a point writes back, the cover, the final array -/

/-- Point `t` writes back block `t` of the perceptron's result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S2048x1024) hz, View.ld_unit_zero (S := S1024x128) hz,
    View.ld_unit_zero (S := S1x128) hz, View.ld_unit_zero (S := S128x4) hz, View.ld_unit_zero (S := S1x4) hz]
  obtain ⟨-, -, -, -, -, -, -, -, -, -, e0, e1⟩ := idx_facts t
  funext y
  obtain ⟨p, j, rfl⟩ : ∃ (p : Fin 2048) (j : Fin 4), y = ix2 p j := ⟨y 0, y 1, eq_ix2 y⟩
  have hemb : ((cfg0.win 5).blk t).view.emb (ix2 p j) = (ix2 (rowOf t p) j : S262144x4.Idx) := funext fun a => Fin.ext (by
    match a with
    | ⟨0, _⟩ => show win0_5.index t (0 : Fin 2) * 2048 + 1 * p.val = 2048 * t.val + p.val; rw [e0]; omega
    | ⟨1, _⟩ => show win0_5.index t (1 : Fin 2) * 4 + 1 * j.val = j.val; rw [e1]; omega)
  show k0_pay1 (F := Ideal) (iblk m c 0 t) (iblk m c 1 t) (iblk m c 2 t) (iblk m c 3 t) (iblk m c 4 t) (ix2 p j)
    = result m c (((cfg0.win 5).blk t).view.emb (ix2 p j))
  rw [hemb]
  exact Cert.Mlp.Body.point_eq (iblk m c 0 t) (iblk m c 1 t) (iblk m c 2 t) (iblk m c 3 t) (iblk m c 4 t) _ _ _ _ _
    (rowOf t) (v_block m c t) (w1_block m c t) (b1_block m c t) (w2_block m c t) (b2_block m c t) p j

/-- An index of the result is in point `t`'s block iff each coordinate is in the block's range on its axis. -/
theorem mem_blk (t : Fin cfg0.N) (i : S262144x4.Idx) :
    i ∈ ((cfg0.win 5).blk t).view.set ↔ ∀ a : Fin 2, win0_5.index t a * S2048x4.size a ≤ (i a).val ∧ (i a).val < win0_5.index t a * S2048x4.size a + S2048x4.size a := by
  show i ∈ ((View.whole main_v4).slice (win0_5.rect t)).set ↔ _
  rw [View.set_slice_whole, Rect.mem_set_unit]
  exact Iff.rfl

/-- Every index of the result lies in some point's block: row `i` in block `i / 2048`. -/
theorem cover (i : S262144x4.Idx) :
    ∃ t : Fin cfg0.N, (cfg0.win 5).flush t = true ∧ i ∈ ((cfg0.win 5).blk t).view.set := by
  have hi0 : (i 0).val < 262144 := (i 0).isLt
  have hi1 : (i 1).val < 4 := (i 1).isLt
  have hN : cfg0.N = 128 := N_0
  have ht : (i 0).val / 2048 < cfg0.N := by rw [hN]; omega
  obtain ⟨-, -, -, -, -, -, -, -, -, -, e0, e1⟩ := idx_facts ⟨(i 0).val / 2048, ht⟩
  refine ⟨⟨(i 0).val / 2048, ht⟩, flush0_5 _, ?_⟩
  rw [mem_blk]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_5.index ⟨(i 0).val / 2048, ht⟩ (1 : Fin 2) * 4 ≤ (i 1).val ∧ (i 1).val < win0_5.index ⟨(i 0).val / 2048, ht⟩ (1 : Fin 2) * 4 + 4
    rw [e1]; omega

/-- So the result array ends holding the perceptron's result on the argument arrays. -/
theorem final (c : Dev nD) : (dats m 0 c).arrAt 5 cfg0.N = result m c :=
  (dats m 0 c).arrAt_eq_of_cover 5 (result m c) (fun t _ => flushed_eq m c t) cover

/-- The kernel's run, read: the result array at the perceptron's result, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Mlp.Blocks

end
-- ==== Proof.lean ====
/-
  A two-layer perceptron applied to each of the 262144 rows of `V`:

      out[r, j] = Σ_k max (Σ_l V[r,l] · W1[l,k] + b1[k]) 0 · W2[k,j] + b2[j].

  The kernel tiles the rows in 128 blocks of 2048 and, at each block, multiplies in a narrower float format into a zero
  accumulator, adds the bias row, clamps at zero, multiplies again and adds the second bias row. The reference does the
  two products on the whole arrays. Over the extended reals a change of float format is the identity and a product into a
  zero accumulator is the plain sum, so both programs compute the same two nested sums, entry by entry: no law of
  arithmetic beyond the definitions is used, and the finiteness of the inputs is never opened.

  The pieces: `Cert.Mlp.out` states the function (Proof/MlpSpec.lean); the reference's last stage is that function
  (Proof/MlpRef.lean); one grid point's store is that function on the point's rows (Proof/MlpPayload.lean,
  Proof/MlpPoint.lean); the points' blocks tile the result, so the kernel's result array ends holding it
  (Proof/MlpBlocks.lean). The three frames are the generated runs; the idealization rewrote nothing.
-/
import proofs.«416699_j49821620633830_3_alg».proof.Defs
import proofs.«416699_j49821620633830_3_alg».proof.Proof.Gen.Kernel
import proofs.«416699_j49821620633830_3_alg».proof.Proof.Gen.Kernel.Skeleton
import proofs.«416699_j49821620633830_3_alg».proof.Proof.Gen.Kernel.Launch
import proofs.«416699_j49821620633830_3_alg».proof.Proof.Gen.Kernel.Points
import proofs.«416699_j49821620633830_3_alg».proof.Proof.Gen.Kernel.Frame
import proofs.«416699_j49821620633830_3_alg».proof.Proof.Gen.KernelIdeal
import proofs.«416699_j49821620633830_3_alg».proof.Proof.Gen.KernelIdeal.Skeleton
import proofs.«416699_j49821620633830_3_alg».proof.Proof.Gen.KernelIdeal.Launch
import proofs.«416699_j49821620633830_3_alg».proof.Proof.Gen.KernelIdeal.Points
import proofs.«416699_j49821620633830_3_alg».proof.Proof.Gen.KernelIdeal.Frame
import proofs.«416699_j49821620633830_3_alg».proof.Proof.Gen.ReferenceIdeal
import proofs.«416699_j49821620633830_3_alg».proof.Proof.Gen.Pre_finite_inputs
import proofs.«416699_j49821620633830_3_alg».proof.Proof.Gen.KernelIdeal.Value
import proofs.«416699_j49821620633830_3_alg».proof.Proof.Gen.ReferenceIdeal.Run
import proofs.«416699_j49821620633830_3_alg».proof.Proof.Gen.ReferenceIdeal.Read
import proofs.«416699_j49821620633830_3_alg».proof.Proof.MlpRef
import proofs.«416699_j49821620633830_3_alg».proof.Proof.MlpBlocks
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array and the reference's both end holding
    `Cert.Mlp.out` of those arguments. -/
theorem algebraic : Cert.algebraic_KernelIdeal_ReferenceIdeal := by
  intro m ρ m' ρ' _ hagree
  refine ⟨fun c => Cert.Mlp.Blocks.result m c, Cert.Mlp.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Mlp.Ref.stage_eq_out, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
